-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1700000 : Shape := ⟨1, ![1700000]⟩
abbrev S128x128 : Shape := ⟨2, ![128, 128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1700000 : S_.BroadcastsInDim S1700000 (![] : Fin 0 → Fin S1700000.rank)
  reducesTo_S1700000_S_d0 : S1700000.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg6 : FVec F S100000x128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S100000x128 .f32 := Host.absf main_arg6
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  main_v23

def fn {F : FTy → Type} [FloatOps F] (main_arg0 : FVec F S100000x128 .f32) (main_arg1 : IVec S1700000 32) (main_arg2 : IVec S1700000 32) (main_arg3 : FVec F S1700000 .f32) (main_arg4 : FVec F S128x128 .f32) (main_arg5 : FVec F S64x128 .f32) (main_arg6 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1700000 .f32 := Host.absf main_arg3
  let main_cst_0 : FVec F S_ .f32 := constant S_ .f32 0x7F800000#32
  let main_v5 : FVec F S1700000 .f32 := broadcastInDim S1700000 ![] bcast_S_S1700000 main_cst_0
  let main_v6 : IVec S1700000 1 := cmpf .olt main_v4 main_v5
  let main_c_1 : IVec S_ 1 := constantI S_ 1 1#1
  let main_v7 : IVec S_ 1 := (fun x v => Host.reduce IntOp.andi x v reducesTo_S1700000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_v13 main_v16
-- ==== Kernel.lean ====
abbrev S100000x128 : Shape := ⟨2, ![100000, 128]⟩
abbrev S1700000 : Shape := ⟨1, ![1700000]⟩
abbrev S128x128 : Shape := ⟨2, ![128, 128]⟩
abbrev S64x128 : Shape := ⟨2, ![64, 128]⟩
abbrev S1700000x1 : Shape := ⟨2, ![1700000, 1]⟩
abbrev S_ : Shape := ⟨0, ![]⟩
abbrev S1700000x128 : Shape := ⟨2, ![1700000, 128]⟩
abbrev S5000x128 : Shape := ⟨2, ![5000, 128]⟩
abbrev S128x64 : Shape := ⟨2, ![128, 64]⟩
abbrev S100000x64 : Shape := ⟨2, ![100000, 64]⟩
abbrev S5000x64 : Shape := ⟨2, ![5000, 64]⟩

abbrev nBuf : Space → Nat
  | .hbm => 43
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S1700000, .f32⟩
  | .hbm, ⟨4, _⟩ => ⟨S128x128, .f32⟩
  | .hbm, ⟨5, _⟩ => ⟨S64x128, .f32⟩
  | .hbm, ⟨6, _⟩ => ⟨S100000x128, .f32⟩
  | .hbm, ⟨7, _⟩ => ⟨S1700000x1, .f32⟩
  | .hbm, ⟨8, _⟩ => ⟨S_, .i32⟩
  | .hbm, ⟨9, _⟩ => ⟨S1700000, .i32⟩
  | .hbm, ⟨10, _⟩ => ⟨S1700000, .i1⟩
  | .hbm, ⟨11, _⟩ => ⟨S_, .i32⟩
  | .hbm, ⟨12, _⟩ => ⟨S1700000, .i32⟩
  | .hbm, ⟨13, _⟩ => ⟨S1700000, .i32⟩
  | .hbm, ⟨14, _⟩ => ⟨S1700000, .i32⟩
  | .hbm, ⟨15, _⟩ => ⟨S1700000x1, .i32⟩
  | .hbm, ⟨16, _⟩ => ⟨S1700000x128, .f32⟩
  | .hbm, ⟨17, _⟩ => ⟨S1700000x128, .f32⟩
  | .hbm, ⟨18, _⟩ => ⟨S1700000x128, .f32⟩
  | .hbm, ⟨19, _⟩ => ⟨S_, .f32⟩
  | .hbm, ⟨20, _⟩ => ⟨S100000x128, .f32⟩
  | .hbm, ⟨21, _⟩ => ⟨S1700000x1, .i32⟩
  | .hbm, ⟨22, _⟩ => ⟨S100000x128, .f32⟩
  | .hbm, ⟨23, _⟩ => ⟨S128x128, .f32⟩
  | .hbm, ⟨24, _⟩ => ⟨S100000x128, .f32⟩
  | .hbm, ⟨25, _⟩ => ⟨S1700000x1, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x128, .f32⟩
  | .hbm, ⟨35, _⟩ => ⟨S1700000x128, .f32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S128x64, .f32⟩
  | .hbm, ⟨42, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1700000 : Shape := ⟨1, ![1700000]⟩
abbrev S128x128 : Shape := ⟨2, ![128, 128]⟩
abbrev S64x128 : Shape := ⟨2, ![64, 128]⟩
abbrev S1700000x1 : Shape := ⟨2, ![1700000, 1]⟩
abbrev S_ : Shape := ⟨0, ![]⟩
abbrev S1700000x128 : Shape := ⟨2, ![1700000, 128]⟩
abbrev S128x64 : Shape := ⟨2, ![128, 64]⟩
abbrev S100000x64 : Shape := ⟨2, ![100000, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1700000, .i32⟩
  | .hbm, ⟨2, _⟩ => ⟨S1700000, .i32⟩
  | .hbm, ⟨3, _⟩ => ⟨S1700000, .f32⟩
  | .hbm, ⟨4, _⟩ => ⟨S128x128, .f32⟩
  | .hbm, ⟨5, _⟩ => ⟨S64x128, .f32⟩
  | .hbm, ⟨6, _⟩ => ⟨S100000x128, .f32⟩
  | .hbm, ⟨7, _⟩ => ⟨S1700000x1, .f32⟩
  | .hbm, ⟨8, _⟩ => ⟨S_, .i32⟩
  | .hbm, ⟨9, _⟩ => ⟨S1700000, .i32⟩
  | .hbm, ⟨10, _⟩ => ⟨S1700000, .i1⟩
  | .hbm, ⟨11, _⟩ => ⟨S_, .i32⟩
  | .hbm, ⟨12, _⟩ => ⟨S1700000, .i32⟩
  | .hbm, ⟨13, _⟩ => ⟨S1700000, .i32⟩
  | .hbm, ⟨14, _⟩ => ⟨S1700000, .i32⟩
  | .hbm, ⟨15, _⟩ => ⟨S1700000x1, .i32⟩
  | .hbm, ⟨16, _⟩ => ⟨S1700000x128, .f32⟩
  | .hbm, ⟨17, _⟩ => ⟨S1700000x128, .f32⟩
  | .hbm, ⟨18, _⟩ => ⟨S1700000x128, .f32⟩
  | .hbm, ⟨19, _⟩ => ⟨S_, .f32⟩
  | .hbm, ⟨20, _⟩ => ⟨S100000x128, .f32⟩
  | .hbm, ⟨21, _⟩ => ⟨S1700000x1, .i32⟩
  | .hbm, ⟨22, _⟩ => ⟨S100000x128, .f32⟩
  | .hbm, ⟨23, _⟩ => ⟨S128x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1700000x1, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .f32⟩
  | .hbm, ⟨39, _⟩ => ⟨S1700000x128, .f32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S128x64, .f32⟩
  | .hbm, ⟨46, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S128x128_S128x128_1_0 : S128x128.Transposes [1, 0] S128x128
  transposes_S64x128_S128x64_1_0 : S64x128.Transposes [1, 0] S128x64
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«172785_j84937273246041_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Layers.lean ====
/-
  The two dense layers of the network, as functions of whole matrices of extended reals. A product of an a × k matrix by
  a k × b matrix has, at entry (r, s), the sum over c of A(r, c) · B(c, s). The hidden layer is the product's positive
  part, entry by entry, times a mask. The host's plain dot product is that product, whatever its precision and schedule.
-/
import proofs.«172785_j84937273246041_1_alg».proof.Proof.LibPlainDot

open scoped BigOperators

noncomputable section

namespace Cert.Layers

open Idealize.ShloMosaic Idealize.ShloMosaic.ValueIdx

variable {a k b : Nat}

/-- The matrix product, entry by entry: row r of A against column s of B. -/
def prod (A : FVec Ideal ⟨2, ![a, k]⟩ .f32) (B : FVec Ideal ⟨2, ![k, b]⟩ .f32) : FVec Ideal ⟨2, ![a, b]⟩ .f32 :=
  fun i => ∑ c : Fin k, A (ix2 (i 0) c) * B (ix2 c (i 1))

/-- The hidden layer: the larger of the product's entry and the float zero, times the mask's entry. -/
def hiddenLayer (A : FVec Ideal ⟨2, ![a, k]⟩ .f32) (B : FVec Ideal ⟨2, ![k, b]⟩ .f32) (M : FVec Ideal ⟨2, ![a, b]⟩ .f32) :
    FVec Ideal ⟨2, ![a, b]⟩ .f32 :=
  fun i => max (prod A B i) (Ideal.ofBits .f32 0x00000000#32) * M i

theorem prod_ix2 (A : FVec Ideal ⟨2, ![a, k]⟩ .f32) (B : FVec Ideal ⟨2, ![k, b]⟩ .f32) (r : Fin a) (s : Fin b) :
    prod A B (ix2 r s) = ∑ c : Fin k, A (ix2 r c) * B (ix2 c s) := rfl

/-- The host's plain dot product of two matrices is their product. -/
theorem dotGeneral_eq_prod (d : DotDims ⟨2, ![a, k]⟩ ⟨2, ![k, b]⟩ ⟨2, ![a, b]⟩)
    (w : DotDims.WF ⟨2, ![a, k]⟩ ⟨2, ![k, b]⟩ ⟨2, ![a, b]⟩ [1] [0] [0] [1] [] []) (hd : d = PlainMatmul.dims w)
    (prec : Option ContractPrecision) (sched : HostSchedule) (A : FVec Ideal ⟨2, ![a, k]⟩ .f32) (B : FVec Ideal ⟨2, ![k, b]⟩ .f32) :
    FloatOps.dotGeneral d prec sched A B = prod A B := by
  funext i
  obtain ⟨r, s, rfl⟩ : ∃ (r : Fin a) (s : Fin b), i = ix2 r s := ⟨i 0, i 1, eq_ix2 i⟩
  exact PlainMatmul.dotGeneral_apply d w hd prec sched A B r s

end Cert.Layers

end
-- ==== Proof.HiddenRegion.lean ====
/-
  The first dense layer as the first region computes it. Grid point t works on rows 5000·t … 5000·t + 4999: it loads
  that row block of the aggregated features, the whole 128 × 128 weight matrix and the same row block of the mask,
  multiplies block by matrix (the narrowing to bf16 is the identity on extended reals), takes the positive part and
  multiplies by the mask. Entry (p, s) of the block it writes back is therefore entry (5000·t + p, s) of the hidden
  layer of the whole arrays, and the twenty blocks tile the 100000 rows: the result array ends holding the hidden layer.
-/
import proofs.«172785_j84937273246041_1_alg».proof.Proof.Gen.KernelIdeal.Frame
import proofs.«172785_j84937273246041_1_alg».proof.Proof.Layers
import Idealize.ShloMosaic.Lib.Pipeline.Value

set_option maxRecDepth 16384

open scoped BigOperators

noncomputable section

namespace Cert.KernelIdeal.HiddenRegion

open Idealize.ShloMosaic Idealize.ShloMosaic.TcCoe Idealize.ShloMosaic.ValueIdx Idealize.SL.Sem
open Cert.KernelIdeal Cert.KernelIdeal.Gen Cert.Layers

theorem origin_eq : (![0, 0] : Fin 2 → Nat) = fun _ => 0 := funext fun a => by fin_cases a <;> rfl

/-- What the body stores, at entry (p, s) of its block: the positive part of row p of the loaded feature block against
    column s of the loaded weights, times the loaded mask's entry. -/
theorem stored_apply (x0 : Vec Ideal S5000x128 .f32) (x1 : Vec Ideal S128x128 .f32) (x2 : Vec Ideal S5000x128 .f32)
    (p : Fin 5000) (s : Fin 128) :
    k0_pay1 (F := Ideal) x0 x1 x2 (ix2 p s)
      = max (∑ c : Fin 128, x0 (ix2 p c) * x1 (ix2 c s)) (Ideal.ofBits .f32 0x00000000#32) * x2 (ix2 p s) := by
  unfold k0_pay1
  rw [shapeCast_self, shapeCast_self]
  refine congrArg₂ (· * ·) (congrArg₂ max ?_ rfl) rfl
  exact PlainMatmul.matmul_zero_apply dot_S5000x128_S128x128_S5000x128_1_0_0_1_n_n
    dot_S5000x128_S128x128_S5000x128_1_0_0_1_n_n_wf rfl none _ _ p s

/-- The index maps over the twenty grid points: the feature, mask and result blocks are row block t, the weight block is
    the whole matrix. -/
theorem block_indices : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is row block t of the hidden layer of the arrays the region finds. -/
theorem flushed_eq (c : Dev nD) (t : Fin cfg0.N) :
    (dat0 V c).flushed 3 t
      = ((cfg0.win 3).blk t).view.read (Elt Ideal) (hiddenLayer (V c main_v12) (V c main_v13) (V c main_arg6)) := by
  show (cfg0.win 3).cut (grid0.coords t) ((dat0 V c).after 3 t) = _
  rw [after0_3]
  unfold out0_3
  rw [View.canon_unit_zero origin_eq]
  simp only [View.ld_unit_zero (S := S5000x128) origin_eq, View.ld_unit_zero (S := S128x128) origin_eq]
  obtain ⟨e30, e31, e00, e01, e10, e11, e20, e21⟩ := block_indices t
  have ht : t.val < 20 := t.isLt
  funext j
  obtain ⟨p, s, rfl⟩ : ∃ (p : Fin 5000) (s : Fin 128), j = ix2 p s := ⟨j 0, j 1, eq_ix2 j⟩
  have hp : p.val < 5000 := p.isLt
  have hs : s.val < 128 := s.isLt
  show k0_pay1 (iblk0 V c 0 t) (iblk0 V c 1 t) (iblk0 V c 2 t) (ix2 p s)
    = hiddenLayer (V c main_v12) (V c main_v13) (V c main_arg6) (((cfg0.win 3).blk t).view.emb (ix2 p s))
  refine (stored_apply _ _ _ p s).trans ?_
  have h3 : ((cfg0.win 3).blk t).view.emb (ix2 p s) = ix2 (⟨t.val * 5000 + p.val, by omega⟩ : Fin 100000) s := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * s.val = s.val; omega
  have h0 : ∀ k : Fin 128, iblk0 V c 0 t (ix2 p k) = V c main_v12 (ix2 (⟨t.val * 5000 + p.val, by omega⟩ : Fin 100000) k) := fun k => by
    have hk : k.val < 128 := k.isLt
    show V c main_v12 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, iblk0 V c 1 t (ix2 k s) = V c main_v13 (ix2 k s) := fun k => by
    have hk : k.val < 128 := k.isLt
    show V c main_v13 (((cfg0.win 1).blk t).view.emb (ix2 k s)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * s.val = s.val; omega
  have h2 : iblk0 V c 2 t (ix2 p s) = V c main_arg6 (ix2 (⟨t.val * 5000 + p.val, by omega⟩ : Fin 100000) s) := by
    show V c main_arg6 (((cfg0.win 2).blk t).view.emb (ix2 p s)) = _
    refine congrArg _ ?_
    funext a; apply Fin.ext
    match a with
    | ⟨0, _⟩ => show win0_2.index t (0 : Fin 2) * 5000 + 1 * p.val = t.val * 5000 + p.val; omega
    | ⟨1, _⟩ => show win0_2.index t (1 : Fin 2) * 128 + 1 * s.val = s.val; omega
  rw [h3]
  exact congrArg₂ (· * ·) (congrArg₂ max (Finset.sum_congr rfl fun k _ => congrArg₂ (· * ·) (h0 k) (h1 k)) rfl) h2

/-- An index of the result array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row r of the result array lies in the block of grid point r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by show _ < 20; omega
  obtain ⟨e30, e31, -⟩ := block_indices ⟨(i 0).val / 5000, hN⟩
  refine ⟨⟨(i 0).val / 5000, hN⟩, flush0_3 _, ?_⟩
  rw [mem_block]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [e31]; omega

/-- After the region its result array holds the hidden layer of the arrays the region found. -/
theorem final (c : Dev nD) :
    (dat0 V c).arrAt 3 cfg0.N = hiddenLayer (V c main_v12) (V c main_v13) (V c main_arg6) :=
  (dat0 V c).arrAt_eq_of_cover 3 _ (fun t _ => flushed_eq V c t) covered

end Cert.KernelIdeal.HiddenRegion

end
-- ==== Proof.OutputRegion.lean ====
/-
  The second dense layer as the second region computes it. Grid point t loads rows 5000·t … 5000·t + 4999 of the
  aggregated hidden features and the whole 128 × 64 weight matrix and multiplies block by matrix (the narrowing to bf16 is
  the identity on extended reals). Entry (p, s) of the block it writes back is entry (5000·t + p, s) of the product of the
  whole arrays, and the twenty blocks tile the 100000 rows: the result array ends holding the product.
-/
import proofs.«172785_j84937273246041_1_alg».proof.Proof.Gen.KernelIdeal.Frame
import proofs.«172785_j84937273246041_1_alg».proof.Proof.Layers
import Idealize.ShloMosaic.Lib.Pipeline.Value

set_option maxRecDepth 16384

open scoped BigOperators

noncomputable section

namespace Cert.KernelIdeal.OutputRegion

open Idealize.ShloMosaic Idealize.ShloMosaic.TcCoe Idealize.ShloMosaic.ValueIdx Idealize.SL.Sem
open Cert.KernelIdeal Cert.KernelIdeal.Gen Cert.Layers

theorem origin_eq : (![0, 0] : Fin 2 → Nat) = fun _ => 0 := funext fun a => by fin_cases a <;> rfl

/-- What the body stores, at entry (p, s) of its block: row p of the loaded feature block against column s of the
    loaded weights. -/
theorem stored_apply (x0 : Vec Ideal S5000x128 .f32) (x1 : Vec Ideal S128x64 .f32) (p : Fin 5000) (s : Fin 64) :
    k1_pay1 (F := Ideal) x0 x1 (ix2 p s) = ∑ c : Fin 128, x0 (ix2 p c) * x1 (ix2 c s) := by
  unfold k1_pay1
  rw [shapeCast_self, shapeCast_self]
  exact PlainMatmul.matmul_zero_apply dot_S5000x128_S128x64_S5000x64_1_0_0_1_n_n
    dot_S5000x128_S128x64_S5000x64_1_0_0_1_n_n_wf rfl none _ _ p s

/-- The index maps over the twenty grid points: the feature and result blocks are row block t, the weight block is the
    whole matrix. -/
theorem block_indices : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

variable (V : (c : Dev nD) → (b : Ref sig .tc) → Buf (Elt Ideal) ((c : Thread nD τ).loc b))

/-- What grid point t writes back is row block t of the product of the arrays the region finds. -/
theorem flushed_eq (c : Dev nD) (t : Fin cfg1.N) :
    (dat1 V c).flushed 2 t = ((cfg1.win 2).blk t).view.read (Elt Ideal) (prod (V c main_v27) (V c main_v28)) := by
  show (cfg1.win 2).cut (grid1.coords t) ((dat1 V c).after 2 t) = _
  rw [after1_2]
  unfold out1_2
  rw [View.canon_unit_zero origin_eq]
  simp only [View.ld_unit_zero (S := S5000x128) origin_eq, View.ld_unit_zero (S := S128x64) origin_eq]
  obtain ⟨e20, e21, e00, e01, e10, e11⟩ := block_indices t
  have ht : t.val < 20 := t.isLt
  funext j
  obtain ⟨p, s, rfl⟩ : ∃ (p : Fin 5000) (s : Fin 64), j = ix2 p s := ⟨j 0, j 1, eq_ix2 j⟩
  have hp : p.val < 5000 := p.isLt
  have hs : s.val < 64 := s.isLt
  show k1_pay1 (iblk1 V c 0 t) (iblk1 V c 1 t) (ix2 p s)
    = prod (V c main_v27) (V c main_v28) (((cfg1.win 2).blk t).view.emb (ix2 p s))
  refine (stored_apply _ _ p s).trans ?_
  have h2 : ((cfg1.win 2).blk t).view.emb (ix2 p s) = ix2 (⟨t.val * 5000 + p.val, by omega⟩ : Fin 100000) s := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * s.val = s.val; omega
  have h0 : ∀ k : Fin 128, iblk1 V c 0 t (ix2 p k) = V c main_v27 (ix2 (⟨t.val * 5000 + p.val, by omega⟩ : Fin 100000) k) := fun k => by
    have hk : k.val < 128 := k.isLt
    show V c main_v27 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, iblk1 V c 1 t (ix2 k s) = V c main_v28 (ix2 k s) := fun k => by
    have hk : k.val < 128 := k.isLt
    show V c main_v28 (((cfg1.win 1).blk t).view.emb (ix2 k s)) = _
    refine congrArg _ ?_
    funext a; apply Fin.ext
    match a with
    | ⟨0, _⟩ => show win1_1.index t (0 : Fin 2) * 128 + 1 * k.val = k.val; omega
    | ⟨1, _⟩ => show win1_1.index t (1 : Fin 2) * 64 + 1 * s.val = s.val; omega
  rw [h2]
  exact Finset.sum_congr rfl fun k _ => congrArg₂ (· * ·) (h0 k) (h1 k)

/-- An index of the result array is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v29).slice (win1_2.rect t)).set ↔ _
  rw [View.set_slice_whole, Rect.mem_set_unit]
  exact Iff.rfl

/-- Row r of the result array lies in the block of grid point r / 5000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : (i 0).val / 5000 < cfg1.N := by show _ < 20; omega
  obtain ⟨e20, e21, -⟩ := block_indices ⟨(i 0).val / 5000, hN⟩
  refine ⟨⟨(i 0).val / 5000, hN⟩, flush1_2 _, ?_⟩
  rw [mem_block]
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hN⟩ (1 : Fin 2) * 64 ≤ (i 1).val
      ∧ (i 1).val < win1_2.index ⟨(i 0).val / 5000, hN⟩ (1 : Fin 2) * 64 + 64
    rw [e21]; omega

/-- After the region its result array holds the product of the arrays the region found. -/
theorem final (c : Dev nD) : (dat1 V c).arrAt 2 cfg1.N = prod (V c main_v27) (V c main_v28) :=
  (dat1 V c).arrAt_eq_of_cover 2 _ (fun t _ => flushed_eq V c t) covered

end Cert.KernelIdeal.OutputRegion

end
-- ==== Proof.Stretches.lean ====
/-
  What the host operations around the two regions compute, as whole arrays. Both stretches are the same sparse
  aggregation: negative column indices are wrapped by the number of nodes, the rows of the feature matrix at those columns
  are gathered, each gathered row is scaled by its edge weight, and the scaled rows are summed into a zero matrix at the
  edges' row indices; beside it the layer's weight matrix is transposed. The first stretch aggregates the input features,
  the second what the first region left in its result array; the index, weight and mask arrays are read as launched.
-/
import proofs.«172785_j84937273246041_1_alg».proof.Proof.Gen.KernelIdeal.Frame
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable {F : FTy → Type} [FloatOps F]

/-- The sparse aggregation of a feature matrix along the edge list (row, col, vals): out[row e] += vals e · X[col e]. -/
def aggregate (X : (⟨S100000x128, .f32⟩ : BufTy).Contents (Elt F)) (row col : (⟨S1700000, .i32⟩ : BufTy).Contents (Elt F))
    (vals : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 row)
    (mulf (broadcastInDim S1700000x128 ![0, 1] bcast_S1700000x1_S1700000x128_0_1 (broadcastInDim S1700000x1 ![0] bcast_S1700000_S1700000x1_0 vals))
      (Host.gather gather_S100000x128_S1700000x1_S1700000x128_1_0_n_n_0_1_1128 X
        (broadcastInDim S1700000x1 ![0] bcast_S1700000_S1700000x1_0
          (select (cmpi .slt col (broadcastInDim S1700000 ![] bcast_S_S1700000 (constantI S_ 32 0#32)))
            (addi col (broadcastInDim S1700000 ![] bcast_S_S1700000 (constantI S_ 32 100000#32))) col))))

/-! ## Each stretch from ANY contents of the buffers: what it leaves in the buffers the next region reads -/

section Stretch

variable (Wx : Valuation τ sig (Elt F))

theorem stretch0_features : StableHlo.after hostOps0 Wx (Proc.devRef .tc main_v12)
    = aggregate (Wx (Proc.devRef .tc main_arg0)) (Wx (Proc.devRef .tc main_arg1)) (Wx (Proc.devRef .tc main_arg2)) (Wx (Proc.devRef .tc main_arg3)) := by
  dsimp only [hostOps0]
  after_results
  rfl

theorem stretch0_weights : StableHlo.after hostOps0 Wx (Proc.devRef .tc main_v13)
    = transpose S128x128 [1, 0] (Wx (Proc.devRef .tc main_arg4)) transposes_S128x128_S128x128_1_0 := by
  dsimp only [hostOps0]
  after_results

theorem stretch0_arg1 : StableHlo.after hostOps0 Wx (Proc.devRef .tc main_arg1) = (Wx (Proc.devRef .tc main_arg1)) := by
  dsimp only [hostOps0]
  after_results
theorem stretch0_arg2 : StableHlo.after hostOps0 Wx (Proc.devRef .tc main_arg2) = (Wx (Proc.devRef .tc main_arg2)) := by
  dsimp only [hostOps0]
  after_results
theorem stretch0_arg3 : StableHlo.after hostOps0 Wx (Proc.devRef .tc main_arg3) = (Wx (Proc.devRef .tc main_arg3)) := by
  dsimp only [hostOps0]
  after_results
theorem stretch0_arg5 : StableHlo.after hostOps0 Wx (Proc.devRef .tc main_arg5) = (Wx (Proc.devRef .tc main_arg5)) := by
  dsimp only [hostOps0]
  after_results
theorem stretch0_arg6 : StableHlo.after hostOps0 Wx (Proc.devRef .tc main_arg6) = (Wx (Proc.devRef .tc main_arg6)) := by
  dsimp only [hostOps0]
  after_results

theorem stretch1_features : StableHlo.after hostOps1 Wx (Proc.devRef .tc main_v27)
    = aggregate (Wx (Proc.devRef .tc main_v14)) (Wx (Proc.devRef .tc main_arg1)) (Wx (Proc.devRef .tc main_arg2)) (Wx (Proc.devRef .tc main_arg3)) := by
  dsimp only [hostOps1]
  after_results
  rfl

theorem stretch1_weights : StableHlo.after hostOps1 Wx (Proc.devRef .tc main_v28)
    = transpose S128x64 [1, 0] (Wx (Proc.devRef .tc main_arg5)) transposes_S64x128_S128x64_1_0 := by
  dsimp only [hostOps1]
  after_results

end Stretch

variable (m : (ℓ : Loc nD τ sig) → Buf (Elt F) ℓ) (ρ : Dev nD → PrngReg)

/-! ## Entering the first region: the aggregated input features, the transposed first weights, the mask -/

theorem entry0_features (c : Dev nD) : W1 m ρ c (Proc.devRef .tc main_v12)
    = aggregate (m ((c : Thread nD τ).loc main_arg0)) (m ((c : Thread nD τ).loc main_arg1)) (m ((c : Thread nD τ).loc main_arg2)) (m ((c : Thread nD τ).loc main_arg3)) :=
  stretch0_features (W0 m ρ c)

theorem entry0_weights (c : Dev nD) : W1 m ρ c (Proc.devRef .tc main_v13)
    = transpose S128x128 [1, 0] (m ((c : Thread nD τ).loc main_arg4)) transposes_S128x128_S128x128_1_0 :=
  stretch0_weights (W0 m ρ c)

theorem entry0_mask (c : Dev nD) : W1 m ρ c (Proc.devRef .tc main_arg6) = (m ((c : Thread nD τ).loc main_arg6)) :=
  stretch0_arg6 (W0 m ρ c)

/-! ## Leaving the first region: the edge list and the second weights are untouched -/

theorem exit0_row (c : Dev nD) : W2 m ρ c (Proc.devRef .tc main_arg1) = (m ((c : Thread nD τ).loc main_arg1)) :=
  (W2_of_ne m ρ c main_arg1 (by decide)).trans (stretch0_arg1 (W0 m ρ c))
theorem exit0_col (c : Dev nD) : W2 m ρ c (Proc.devRef .tc main_arg2) = (m ((c : Thread nD τ).loc main_arg2)) :=
  (W2_of_ne m ρ c main_arg2 (by decide)).trans (stretch0_arg2 (W0 m ρ c))
theorem exit0_vals (c : Dev nD) : W2 m ρ c (Proc.devRef .tc main_arg3) = (m ((c : Thread nD τ).loc main_arg3)) :=
  (W2_of_ne m ρ c main_arg3 (by decide)).trans (stretch0_arg3 (W0 m ρ c))
theorem exit0_weights (c : Dev nD) : W2 m ρ c (Proc.devRef .tc main_arg5) = (m ((c : Thread nD τ).loc main_arg5)) :=
  (W2_of_ne m ρ c main_arg5 (by decide)).trans (stretch0_arg5 (W0 m ρ c))

/-! ## Entering the second region: the aggregated hidden features, the transposed second weights -/

theorem entry1_features (c : Dev nD) : W3 m ρ c (Proc.devRef .tc main_v27)
    = aggregate (W2 m ρ c (Proc.devRef .tc main_v14)) (m ((c : Thread nD τ).loc main_arg1)) (m ((c : Thread nD τ).loc main_arg2)) (m ((c : Thread nD τ).loc main_arg3)) :=
  (stretch1_features (W2 m ρ c)).trans (by rw [exit0_row, exit0_col, exit0_vals])

theorem entry1_weights (c : Dev nD) : W3 m ρ c (Proc.devRef .tc main_v28)
    = transpose S128x64 [1, 0] (m ((c : Thread nD τ).loc main_arg5)) transposes_S64x128_S128x64_1_0 :=
  (stretch1_weights (W2 m ρ c)).trans (by rw [exit0_weights])

end Cert.KernelIdeal.Stretches

end
-- ==== Proof.Network.lean ====
/-
  The function both programs compute: aggregate the input features along the edge list, apply the hidden layer with the
  first weights transposed and the mask, aggregate again, and multiply by the second weights transposed.
-/
import proofs.«172785_j84937273246041_1_alg».proof.Proof.Stretches
import proofs.«172785_j84937273246041_1_alg».proof.Proof.Layers

noncomputable section

namespace Cert.KernelIdeal.Network

open Idealize.ShloMosaic Cert.KernelIdeal Cert.KernelIdeal.Gen Cert.KernelIdeal.Stretches Cert.Layers

/-- The two-layer network on whole arrays of extended reals. -/
def network (X : (⟨S100000x128, .f32⟩ : BufTy).Contents (Elt Ideal)) (row col : (⟨S1700000, .i32⟩ : BufTy).Contents (Elt Ideal))
    (vals : (⟨S1700000, .f32⟩ : BufTy).Contents (Elt Ideal)) (W1 : (⟨S128x128, .f32⟩ : BufTy).Contents (Elt Ideal))
    (W2 : (⟨S64x128, .f32⟩ : BufTy).Contents (Elt Ideal)) (M : (⟨S100000x128, .f32⟩ : BufTy).Contents (Elt Ideal)) :
    (⟨S100000x64, .f32⟩ : BufTy).Contents (Elt Ideal) :=
  prod (aggregate (hiddenLayer (aggregate X row col vals) (transpose S128x128 [1, 0] W1 transposes_S128x128_S128x128_1_0) M) row col vals)
    (transpose S128x64 [1, 0] W2 transposes_S64x128_S128x64_1_0)

end Cert.KernelIdeal.Network

end
-- ==== Proof.KernelValue.lean ====
/-
  The idealized kernel's result. The run ends with the result buffer at what the second region's write-backs leave in it:
  the product of the second stretch's two arrays; the first of them aggregates what the first region left, the hidden layer
  of the first stretch's arrays. Reading each boundary back to the launch memory gives the network of the argument arrays.
-/
import proofs.«172785_j84937273246041_1_alg».proof.Proof.KernelRun
import proofs.«172785_j84937273246041_1_alg».proof.Proof.HiddenRegion
import proofs.«172785_j84937273246041_1_alg».proof.Proof.OutputRegion
import proofs.«172785_j84937273246041_1_alg».proof.Proof.Network

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Stretches Cert.KernelIdeal.Network Cert.Layers

variable (m : (ℓ : Loc nD τ sig) → Buf (Elt Ideal) ℓ) (ρ : Dev nD → PrngReg)

/-- The first region's result array, as the second stretch finds it: the hidden layer of the aggregated input. -/
theorem hidden_array (c : Dev nD) : W2 m ρ c (Proc.devRef .tc main_v14)
    = hiddenLayer (aggregate (m ((c : Thread nD τ).loc main_arg0)) (m ((c : Thread nD τ).loc main_arg1)) (m ((c : Thread nD τ).loc main_arg2)) (m ((c : Thread nD τ).loc main_arg3)))
        (transpose S128x128 [1, 0] (m ((c : Thread nD τ).loc main_arg4)) transposes_S128x128_S128x128_1_0) (m ((c : Thread nD τ).loc main_arg6)) := by
  refine (W2_arr m ρ c 3).trans ?_
  refine (HiddenRegion.final (V1 m ρ) c).trans ?_
  show hiddenLayer (W1 m ρ c (Proc.devRef .tc main_v12)) (W1 m ρ c (Proc.devRef .tc main_v13)) (W1 m ρ c (Proc.devRef .tc main_arg6)) = _
  rw [entry0_features, entry0_weights, entry0_mask]

/-- The result buffer at the last boundary: the network of the launch memory's argument arrays. -/
theorem result_array (c : Dev nD) : W4 m ρ c (Proc.devRef .tc main_v29)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 2).trans ?_
  refine (OutputRegion.final (V3 m ρ) c).trans ?_
  show prod (W3 m ρ c (Proc.devRef .tc main_v27)) (W3 m ρ c (Proc.devRef .tc main_v28)) = _
  rw [entry1_features, entry1_weights, hidden_array]
  rfl

/-- Every weakly fair execution of the idealized kernel terminates without a fault, with the result buffer at the network
    of the argument arrays and the argument arrays as launched. -/
theorem run : θ_run defs (onTc (τ := τ) (main (F := Ideal))) ⟨m, fun _ => 0, ρ⟩ (fun r => ∀ c : Dev nD,
      r.2.mem ((c.tc : Thread nD τ).loc main_v29)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_array m ρ c), (h c).2⟩) (Result.run_result m ρ)

end Cert.KernelIdeal.KernelValue

end
-- ==== Proof.RefValue.lean ====
/-
  The idealized reference's result. Its run ends with the result at the composed term of its host operations: aggregate,
  dot with the transposed first weights, positive part, mask, aggregate, dot with the transposed second weights. A host dot
  of two matrices is their product entry by entry, the positive part times the mask is the hidden layer, and the
  aggregation is the very operations of the kernel's host stretches: the term is the network of the argument arrays.
-/
import proofs.«172785_j84937273246041_1_alg».proof.Proof.Gen.ReferenceIdeal.Run
import proofs.«172785_j84937273246041_1_alg».proof.Proof.Network

set_option maxRecDepth 16384

noncomputable section

namespace Cert.ReferenceIdeal.RefValue

open Idealize.ShloMosaic Idealize.ShloMosaic.TcCoe Idealize.SL.Sem
open Cert.ReferenceIdeal Cert.ReferenceIdeal.Gen Cert.Layers

/-- The reference's own spelling of the sparse aggregation along the edge list. -/
def aggregate {F : FTy → Type} [FloatOps F] (X : FVec F S100000x128 .f32) (row col : IVec S1700000 32)
    (vals : FVec F S1700000 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 row)
    (mulf (broadcastInDim S1700000x128 ![0, 1] bcast_S1700000x1_S1700000x128_0_1 (broadcastInDim S1700000x1 ![0] bcast_S1700000_S1700000x1_0 vals))
      (Host.gather gather_S100000x128_S1700000x1_S1700000x128_1_0_n_n_0_1_1128 X
        (broadcastInDim S1700000x1 ![0] bcast_S1700000_S1700000x1_0
          (select (cmpi .slt col (broadcastInDim S1700000 ![] bcast_S_S1700000 (constantI S_ 32 0#32)))
            (addi col (broadcastInDim S1700000 ![] bcast_S_S1700000 (constantI S_ 32 100000#32))) col))))

/-- It is the kernel's host stretches' aggregation: the same operations with the same dimension numbers. -/
theorem aggregate_eq (X : FVec Ideal S100000x128 .f32) (row col : IVec S1700000 32)
    (vals : FVec Ideal S1700000 .f32) :
    aggregate (F := Ideal) X row col vals = Cert.KernelIdeal.Stretches.aggregate (F := Ideal) X row col vals := rfl

/-- The positive part of a matrix product against the splat of the float zero, times a mask, is the hidden layer. -/
theorem relu_mask_eq (A : FVec Ideal S100000x128 .f32) (B : FVec Ideal S128x128 .f32)
    (M : FVec Ideal S100000x128 .f32) :
    mulf (F := Ideal) (maximumf (F := Ideal) (prod A B) (broadcastInDim S100000x128 ![] bcast_S_S100000x128 (constant (F := Ideal) S_ .f32 0x00000000#32))) M
      = hiddenLayer A B M :=
  funext fun _ => rfl

/-- The reference's composed term is the network of its arguments. -/
theorem term_eq (X : FVec Ideal S100000x128 .f32) (row col : IVec S1700000 32)
    (vals : FVec Ideal S1700000 .f32) (W1 : FVec Ideal S128x128 .f32)
    (W2 : FVec Ideal S64x128 .f32) (M : FVec Ideal S100000x128 .f32) :
    Host.dotGeneral (F := Ideal) (φ₁ := .f32) (φ₂ := .f32) dot_S100000x128_S128x64_S100000x64_1_0_0_1_n_n none
        (aggregate (F := Ideal) (mulf (F := Ideal) (maximumf (F := Ideal) (Host.dotGeneral (F := Ideal) (φ₁ := .f32) (φ₂ := .f32) dot_S100000x128_S128x128_S100000x128_1_0_0_1_n_n none (aggregate (F := Ideal) X row col vals)
            (transpose S128x128 [1, 0] W1 transposes_S128x128_S128x128_1_0))
          (broadcastInDim S100000x128 ![] bcast_S_S100000x128 (constant (F := Ideal) S_ .f32 0x00000000#32))) M) row col vals)
        (transpose S128x64 [1, 0] W2 transposes_S64x128_S128x64_1_0)
      = Cert.KernelIdeal.Network.network X row col vals W1 W2 M := by
  have e1 := fun A B => dotGeneral_eq_prod dot_S100000x128_S128x128_S100000x128_1_0_0_1_n_n
    dot_S100000x128_S128x128_S100000x128_1_0_0_1_n_n_wf rfl none .single A B
  have e2 := fun A B => dotGeneral_eq_prod dot_S100000x128_S128x64_S100000x64_1_0_0_1_n_n
    dot_S100000x128_S128x64_S100000x64_1_0_0_1_n_n_wf rfl none .single A B
  show FloatOps.dotGeneral (F := Ideal) (φ₁ := .f32) (φ₂ := .f32) dot_S100000x128_S128x64_S100000x64_1_0_0_1_n_n none .single
        (aggregate (F := Ideal) (mulf (F := Ideal) (maximumf (F := Ideal) (FloatOps.dotGeneral (F := Ideal) (φ₁ := .f32) (φ₂ := .f32) dot_S100000x128_S128x128_S100000x128_1_0_0_1_n_n none .single (aggregate (F := Ideal) X row col vals)
            (transpose S128x128 [1, 0] W1 transposes_S128x128_S128x128_1_0))
          (broadcastInDim S100000x128 ![] bcast_S_S100000x128 (constant (F := Ideal) S_ .f32 0x00000000#32))) M) row col vals)
        (transpose S128x64 [1, 0] W2 transposes_S64x128_S128x64_1_0) = _
  rw [e2, e1, relu_mask_eq, aggregate_eq, aggregate_eq]
  rfl

variable (m : (ℓ : Loc nD τ sig) → Buf (Elt Ideal) ℓ) (ρ : Dev nD → PrngReg)

/-- Every weakly fair execution of the idealized reference terminates without a fault, with the result at the network of
    the argument arrays and the argument arrays as launched. -/
theorem run : θ_run defs (onTc (τ := τ) (main (F := Ideal))) ⟨m, fun _ => 0, ρ⟩ (fun r => ∀ c : Dev nD,
      r.2.mem ((c.tc : Thread nD τ).loc main_v31)
        = Cert.KernelIdeal.Network.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (term_eq _ _ _ _ _ _ _), (h c).2⟩) (Cert.ReferenceIdeal.Value.run (F := Ideal) m ρ)

end Cert.ReferenceIdeal.RefValue

end
-- ==== Proof.lean ====
/-
  The certificate of a two-layer graph network. Both programs aggregate the input features along a weighted edge list
  (gather the rows at the column indices, scale by the edge weights, sum at the row indices), apply a dense layer with
  ReLU and a dropout mask, aggregate again and apply a second dense layer. The kernel runs the two dense layers as
  pipelined regions over twenty row blocks of 5000 rows, narrowing the matrix product's operands to bf16; the reference
  computes them as whole dot products. On extended reals the narrowing is the identity, a block's product is the same
  sum over the 128 contracted coordinates as the whole product's at that row, and the aggregation stretches are the very
  same host operations on both sides, so both results are one function of the arguments, the two-layer network; no law
  beyond the equality of those sums is used, and the finiteness of the inputs is not needed.
  The frames of the two kernel programs are the generated ones, the reference's frame is its run with the result dropped,
  and the idealization changed no operation.
-/
import proofs.«172785_j84937273246041_1_alg».proof.Defs
import proofs.«172785_j84937273246041_1_alg».proof.Proof.Gen.Kernel
import proofs.«172785_j84937273246041_1_alg».proof.Proof.Gen.Kernel.Skeleton
import proofs.«172785_j84937273246041_1_alg».proof.Proof.Gen.Kernel.Launch
import proofs.«172785_j84937273246041_1_alg».proof.Proof.Gen.Kernel.Points
import proofs.«172785_j84937273246041_1_alg».proof.Proof.Gen.Kernel.Frame
import proofs.«172785_j84937273246041_1_alg».proof.Proof.Gen.KernelIdeal
import proofs.«172785_j84937273246041_1_alg».proof.Proof.Gen.KernelIdeal.Skeleton
import proofs.«172785_j84937273246041_1_alg».proof.Proof.Gen.KernelIdeal.Launch
import proofs.«172785_j84937273246041_1_alg».proof.Proof.Gen.KernelIdeal.Points
import proofs.«172785_j84937273246041_1_alg».proof.Proof.Gen.KernelIdeal.Frame
import proofs.«172785_j84937273246041_1_alg».proof.Proof.Gen.ReferenceIdeal
import proofs.«172785_j84937273246041_1_alg».proof.Proof.Gen.Pre_finite_inputs
import proofs.«172785_j84937273246041_1_alg».proof.Proof.KernelValue
import proofs.«172785_j84937273246041_1_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories that agree on the arguments both programs end with the network of those arguments. -/
theorem algebraic : Cert.algebraic_KernelIdeal_ReferenceIdeal := by
  intro m ρ m' ρ' _ hagree
  refine ⟨fun c => Cert.KernelIdeal.Network.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun r h c => ⟨(h c).1.trans ?_, (h c).2⟩)
    (Cert.ReferenceIdeal.RefValue.run m' ρ')
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
